-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : IVec S16384x4096 32) (main_arg2 : FVec F S16384 .f32) (main_arg3 : IVec S16384 32) (main_arg4 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg4
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S16384 : Shape := ⟨1, ![16384]⟩
abbrev S16384x1 : Shape := ⟨2, ![16384, 1]⟩
abbrev S256x4096 : Shape := ⟨2, ![256, 4096]⟩
abbrev S256x1 : Shape := ⟨2, ![256, 1]⟩
abbrev S8192x4096 : Shape := ⟨2, ![8192, 4096]⟩
abbrev S1x16384 : Shape := ⟨2, ![1, 16384]⟩
abbrev S8192x16384 : Shape := ⟨2, ![8192, 16384]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩
abbrev S4x2048x16384 : Shape := ⟨3, ![4, 2048, 16384]⟩

abbrev nBuf : Space → Nat
  | .hbm => 12
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .i32⟩
  | .hbm, ⟨4, _⟩ => ⟨S16384, .f32⟩
  | .hbm, ⟨5, _⟩ => ⟨S16384x1, .f32⟩
  | .hbm, ⟨6, _⟩ => ⟨S16384x1, .i32⟩
  | .hbm, ⟨7, _⟩ => ⟨S16384x4096, .bf16⟩
  | .hbm, ⟨8, _⟩ => ⟨S8192x4096, .f32⟩
  | .hbm, ⟨9, _⟩ => ⟨S1x16384, .f32⟩
  | .hbm, ⟨10, _⟩ => ⟨S8192x16384, .f32⟩
  | .hbm, ⟨11, _⟩ => ⟨S4x2048x16384, .f32⟩
  | .local _ .vmem, ⟨0, _⟩ => ⟨S256x4096, .i32⟩
  | .local _ .vmem, ⟨1, _⟩ => ⟨S256x4096, .i32⟩
  | .local _ .vmem, ⟨2, _⟩ => ⟨S256x1, .f32⟩
  | .local _ .vmem, ⟨3, _⟩ => ⟨S256x1, .f32⟩
  | .local _ .vmem, ⟨4, _⟩ => ⟨S256x1, .i32⟩
  | .local _ .vmem, ⟨5, _⟩ => ⟨S256x1, .i32⟩
  | .local _ .vmem, ⟨6, _⟩ => ⟨S256x4096, .bf16⟩
  | .local _ .vmem, ⟨7, _⟩ => ⟨S256x4096, .bf16⟩
  | .local _ .vmem, ⟨8, _⟩ => ⟨S1024x4096, .f32⟩
  | .local _ .vmem, ⟨9, _⟩ => ⟨S512x4096, .bf16⟩
  | .local _ .vmem, ⟨10, _⟩ => ⟨S512x4096, .bf16⟩
  | .local _ .vmem, ⟨11, _⟩ => ⟨S1x512, .f32⟩
  | .local _ .vmem, ⟨12, _⟩ => ⟨S1x512, .f32⟩
  | .local _ .vmem, ⟨13, _⟩ => ⟨S1024x512, .f32⟩
  | .local _ .vmem, ⟨14, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S1024x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S16384_S16384x1 : S16384.ShapeCasts S16384x1
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  shapeCasts_S16384_S1x16384 : S16384.ShapeCasts S1x16384
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x16384_S4x2048x16384 : S8192x16384.ShapeCasts S4x2048x16384
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .i32 = 32 ∨ (Rect.block (s := S16384x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S16384x1.size a
  hwx0_1 : ∀ i : grid0.Coords, EltTy.bits .f32 = 32 ∨ (Rect.block (s := S16384x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .i32 = 32 ∨ (Rect.block (s := S16384x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .bf16 = 32 ∨ (Rect.block (s := S16384x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .f32 = 32 ∨ (Rect.block (s := S8192x4096) S1024x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S16384x4096.size a
  hwx1_1 : ∀ i : grid1.Coords, EltTy.bits .bf16 = 32 ∨ (Rect.block (s := S16384x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x16384.size a
  hwx1_2 : ∀ i : grid1.Coords, EltTy.bits .f32 = 32 ∨ (Rect.block (s := S1x16384) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x16384.size a
  hwx1_3 : ∀ i : grid1.Coords, EltTy.bits .f32 = 32 ∨ (Rect.block (s := S8192x16384) S1024x512.size (cc1_transform_3 i) (hinb1_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1024x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S16384x1 : Shape := ⟨2, ![16384, 1]⟩
abbrev S4x2048x16384 : Shape := ⟨3, ![4, 2048, 16384]⟩
abbrev S1x1x16384 : Shape := ⟨3, ![1, 1, 16384]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .i32⟩
  | .hbm, ⟨4, _⟩ => ⟨S16384, .f32⟩
  | .hbm, ⟨5, _⟩ => ⟨S16384x4096, .f32⟩
  | .hbm, ⟨6, _⟩ => ⟨S16384, .f32⟩
  | .hbm, ⟨7, _⟩ => ⟨S16384x1, .f32⟩
  | .hbm, ⟨8, _⟩ => ⟨S16384x4096, .f32⟩
  | .hbm, ⟨9, _⟩ => ⟨S16384x4096, .f32⟩
  | .hbm, ⟨10, _⟩ => ⟨S16384x1, .f32⟩
  | .hbm, ⟨11, _⟩ => ⟨S16384x4096, .f32⟩
  | .hbm, ⟨12, _⟩ => ⟨S16384x4096, .f32⟩
  | .hbm, ⟨13, _⟩ => ⟨S4x2048x16384, .f32⟩
  | .hbm, ⟨14, _⟩ => ⟨S1x1x16384, .f32⟩
  | .hbm, ⟨15, _⟩ => ⟨S4x2048x16384, .f32⟩
  | .hbm, ⟨16, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Spec.lean ====
/-
  The mathematics of the quantized linear layer, with no program in sight.

  A weight matrix is stored as integers `q[o, k]` with one zero point `zp[o]` and one scale `sc[o]` per
  output channel `o`; the dequantized weight is `w[o, k] = (q[o, k] - zp[o]) · sc[o]` (integers read exactly as
  reals), and the layer sends a row `x[b, s, ·]` to `∑ₖ x[b, s, k] · w[o, k] + bias[o]`. Both programs of the
  certificate compute this function on the extended reals; the only freedom between them is the ORDER in which the
  4096 products of a row are added, which a sum over a commutative monoid does not see.
-/
import Idealize.ShloMosaic.PureOps.Ideal
import Idealize.ShloMosaic.Lib.ValueIdx

noncomputable section

namespace Cert.QuantLinear

open Idealize.ShloMosaic Idealize.ShloMosaic.ValueIdx

/-- The activations [4, 2048, 4096]. -/
abbrev SX : Shape := ⟨3, ![4, 2048, 4096]⟩
/-- The quantized weight [16384, 4096]. -/
abbrev SQ : Shape := ⟨2, ![16384, 4096]⟩
/-- A per-channel vector [16384]. -/
abbrev SC : Shape := ⟨1, ![16384]⟩
/-- The result [4, 2048, 16384]. -/
abbrev SO : Shape := ⟨3, ![4, 2048, 16384]⟩

/-- The dequantized weight of channel `o` at input feature `k`: `(q[o, k] - zp[o]) · sc[o]`. -/
def weight (q : SQ.Idx → BitVec 32) (sc : SC.Idx → EReal) (zp : SC.Idx → BitVec 32) (o : Fin 16384) (k : Fin 4096) : EReal :=
  ((((q (ix2 o k)).toInt : ℝ) : EReal) - (((zp (ix1 o)).toInt : ℝ) : EReal)) * sc (ix1 o)

/-- The layer's output at batch `b`, position `s`, channel `o`. -/
def out (x : SX.Idx → EReal) (q : SQ.Idx → BitVec 32) (sc : SC.Idx → EReal) (zp : SC.Idx → BitVec 32) (bias : SC.Idx → EReal)
    (b : Fin 4) (s : Fin 2048) (o : Fin 16384) : EReal :=
  (∑ k : Fin 4096, x (ix3 b s k) * weight q sc zp o k) + bias (ix1 o)

/-- The layer's output as an array. -/
def result (x : SX.Idx → EReal) (q : SQ.Idx → BitVec 32) (sc : SC.Idx → EReal) (zp : SC.Idx → BitVec 32) (bias : SC.Idx → EReal) :
    SO.Idx → EReal :=
  fun i => out x q sc zp bias (i 0) (i 1) (i 2)

theorem result_ix3 (x : SX.Idx → EReal) (q : SQ.Idx → BitVec 32) (sc : SC.Idx → EReal) (zp : SC.Idx → BitVec 32) (bias : SC.Idx → EReal)
    (b : Fin 4) (s : Fin 2048) (o : Fin 16384) :
    result x q sc zp bias (ix3 b s o) = out x q sc zp bias b s o := rfl

end Cert.QuantLinear

end
-- ==== Proof.RefValue.lean ====
/-
  The reference computes the layer: its result array, read one element at a time, is `QuantLinear.result`.

  The reference converts both integer arrays to reals, broadcasts the zero points and the scales along the rows of
  the weight, subtracts, multiplies, contracts the activations' last axis with the weight's last axis and adds the
  bias broadcast over batch and position. Read at an index (b, s, o) this is literally
  `∑ₖ x[b, s, k] · ((q[o, k] - zp[o]) · sc[o]) + bias[o]`: every broadcast collapses to the channel `o`.
-/
import proofs.«146812_j63513976373289_1_alg».proof.Proof.Gen.ReferenceIdeal.Run
import proofs.«146812_j63513976373289_1_alg».proof.Proof.Gen.ReferenceIdeal.Read
import proofs.«146812_j63513976373289_1_alg».proof.Proof.Spec

noncomputable section

namespace Cert.QuantLinear.Ref

open Idealize.ShloMosaic Idealize.ShloMosaic.ValueIdx
open Cert.ReferenceIdeal Cert.ReferenceIdeal.Read

/-- The reference's last stage is the layer's output, element by element. -/
theorem stage_eq (x0 : SX.Idx → EReal) (x1 : SQ.Idx → BitVec 32) (x2 : SC.Idx → EReal) (x3 : SC.Idx → BitVec 32) (x4 : SC.Idx → EReal) :
    val_main_v11 (F := Ideal) x0 x1 x2 x3 x4 = result x0 x1 x2 x3 x4 := by
  funext i
  obtain ⟨b, s, o, rfl⟩ : ∃ (b : Fin 4) (s : Fin 2048) (o : Fin 16384), i = ix3 b s o := ⟨i 0, i 1, i 2, eq_ix3 i⟩
  rw [result_ix3, val_main_v11_apply, val_main_v8_apply, val_main_v10_apply, val_main_v9_apply]
  have e4 : idx_main_v9 (idx_main_v10 (ix3 b s o)) = ix1 o := funext fun a => match a with | ⟨0, _⟩ => rfl
  rw [e4]
  unfold out
  show (∑ k : Fin 4096, _) + _ = _
  refine congrArg (· + x4 (ix1 o)) (Finset.sum_congr rfl fun k _ => ?_)
  have el : lidx_main_v8 (ix3 b s o) k = ix3 b s k := funext fun a => match a with
    | ⟨0, _⟩ => rfl | ⟨1, _⟩ => rfl | ⟨2, _⟩ => rfl
  have er : ridx_main_v8 (ix3 b s o) k = ix2 o k := funext fun a => match a with
    | ⟨0, _⟩ => rfl | ⟨1, _⟩ => rfl
  rw [el, er, val_main_v7_apply, val_main_v4_apply, val_main_v0_apply, val_main_v3_apply, val_main_v2_apply,
    val_main_v1_apply, val_main_v6_apply, val_main_v5_apply]
  have e3 : idx_main_v2 (idx_main_v3 (ix2 o k)) = ix1 o := funext fun a => match a with | ⟨0, _⟩ => rfl
  have e6 : idx_main_v5 (idx_main_v6 (ix2 o k)) = ix1 o := funext fun a => match a with | ⟨0, _⟩ => rfl
  rw [e3, e6]
  rfl

end Cert.QuantLinear.Ref

end
-- ==== Proof.Dequant.lean ====
/-
  The first pallas_call: the dequantized weight, as an array.

  Its grid has 64 points; point `t` reads rows `256 t … 256 t + 255` of the integer weight and of the two
  per-channel columns (scale and zero point, each laid out [16384, 1]) and writes the same rows of the result. The
  body computes, element by element, `(q - zp) · scale` with the two columns broadcast along the row; the
  narrowing to bf16 is the identity on the extended reals. So the result array is ONE function of the three arrays
  the region finds, `deq`, and every point writes its block of it; the 64 blocks tile the array.
-/
import proofs.«146812_j63513976373289_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.QuantLinear.Dequant

open Idealize.ShloMosaic Idealize.ShloMosaic.TcCoe Idealize.ShloMosaic.ValueIdx Idealize.SL.Sem
open Idealize.ShloMosaic.Pipeline (Dat)
open Cert.KernelIdeal Cert.KernelIdeal.Gen

/-- The column index (r, 0) of row `r`. -/
abbrev col (j : S16384x4096.Idx) : S16384x1.Idx := ix2 (n0 := 16384) (n1 := 1) ⟨(j 0).val, (j 0).isLt⟩ ⟨0, Nat.one_pos⟩

/-- The dequantized weight from the integer weight and the two columns. -/
def deq (q : S16384x4096.Idx → BitVec 32) (s2 : S16384x1.Idx → EReal) (z2 : S16384x1.Idx → BitVec 32) : S16384x4096.Idx → EReal :=
  fun j => ((((q j).toInt : ℝ) : EReal) - (((z2 (col j)).toInt : ℝ) : EReal)) * s2 (col j)

theorem hz : (![0, 0] : Fin 2 → Nat) = fun _ => 0 := funext fun a => by fin_cases a <;> rfl

/-- The body's stored value at row `p`, lane `k` of the block: the integer minus the row's zero point, times the row's scale. -/
theorem pay_apply (x0 : Vec Ideal S256x4096 .i32) (x1 : Vec Ideal S256x1 .f32) (x2 : Vec Ideal S256x1 .i32) (p : Fin 256) (k : Fin 4096) :
    k0_pay1 (F := Ideal) x0 x1 x2 (ix2 p k)
      = ((((x0 (ix2 p k)).toInt : ℝ) : EReal) - (((x2 (ix2 p ⟨0, Nat.one_pos⟩)).toInt : ℝ) : EReal)) * x1 (ix2 p ⟨0, Nat.one_pos⟩) := by
  unfold k0_pay1
  rw [shapeCast_self, shapeCast_self]
  show ((((x0 (ix2 p k)).toInt : ℝ) : EReal) - broadcastTo S256x4096 (sitofp (F := Ideal) .f32 x2) broadcasts_S256x1_S256x4096 (ix2 p k))
      * broadcastTo S256x4096 x1 broadcasts_S256x1_S256x4096 (ix2 p k) = _
  have hk : ∀ a : Fin S256x1.rank, ((ix2 p (⟨0, Nat.one_pos⟩ : Fin 1) : S256x1.Idx) a).val
      = if S256x1.size a = 1 then 0 else ((ix2 p k : S256x4096.Idx) ⟨a.val + (S256x4096.rank - S256x1.rank), by have := a.isLt; omega⟩).val := fun a =>
    match a with
    | ⟨0, _⟩ => by show p.val = if (256 : Nat) = 1 then 0 else p.val; rw [if_neg (by decide)]
    | ⟨1, _⟩ => by show 0 = if (1 : Nat) = 1 then 0 else k.val; rw [if_pos rfl]
  rw [broadcastTo_apply _ broadcasts_S256x1_S256x4096 (ix2 p k) (ix2 p ⟨0, Nat.one_pos⟩) hk,
    broadcastTo_apply _ broadcasts_S256x1_S256x4096 (ix2 p k) (ix2 p ⟨0, Nat.one_pos⟩) hk]
  rfl

section Region

variable (V : (c : Dev nD) → (b : Ref sig .tc) → Buf (Elt Ideal) ((c : Thread nD τ).loc b))

/-- The four windows move together: at point `t` each is at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is its block of `deq` of the three arrays the region finds. -/
theorem flushed_eq (c : Dev nD) (t : Fin cfg0.N) :
    (dat0 V c).flushed 3 t = ((cfg0.win 3).blk t).view.read (Elt Ideal) (deq (V c main_arg1) (V c main_v0) (V c main_v1)) := by
  show (cfg0.win 3).cut (grid0.coords t) ((dat0 V c).after 3 t) = _
  rw [after0_3]
  unfold out0_3
  rw [View.canon_unit_zero hz]
  simp only [View.ld_unit_zero (S := S256x4096) hz, View.ld_unit_zero (S := S256x1) hz]
  funext j
  obtain ⟨p, k, rfl⟩ : ∃ (p : Fin 256) (k : Fin 4096), j = (ix2 p k : S256x4096.Idx) := ⟨j 0, j 1, eq_ix2 (n0 := 256) (n1 := 4096) j⟩
  show k0_pay1 (F := Ideal) (iblk0 V c 0 t) (iblk0 V c 1 t) (iblk0 V c 2 t) (ix2 p k)
      = deq (V c main_arg1) (V c main_v0) (V c main_v1) (((cfg0.win 3).blk t).view.emb (ix2 p k))
  refine (pay_apply (iblk0 V c 0 t) (iblk0 V c 1 t) (iblk0 V c 2 t) p k).trans ?_
  obtain ⟨e00, e01, e10, e11, e20, e21, e30, e31⟩ := idx_facts t
  have h0 : ((cfg0.win 0).blk t).view.emb (ix2 p k : S256x4096.Idx) = ((cfg0.win 3).blk t).view.emb (ix2 p k : S256x4096.Idx) := by
    funext a; apply Fin.ext
    match a with
    | ⟨0, _⟩ => show win0_0.index t (0 : Fin 2) * 256 + 1 * p.val = win0_3.index t (0 : Fin 2) * 256 + 1 * p.val; omega
    | ⟨1, _⟩ => show win0_0.index t (1 : Fin 2) * 4096 + 1 * k.val = win0_3.index t (1 : Fin 2) * 4096 + 1 * k.val; omega
  have h1 : ((cfg0.win 1).blk t).view.emb (ix2 p (⟨0, Nat.one_pos⟩ : Fin 1) : S256x1.Idx) = col (((cfg0.win 3).blk t).view.emb (ix2 p k : S256x4096.Idx)) := by
    funext a; apply Fin.ext
    match a with
    | ⟨0, _⟩ => show win0_1.index t (0 : Fin 2) * 256 + 1 * p.val = win0_3.index t (0 : Fin 2) * 256 + 1 * p.val; omega
    | ⟨1, _⟩ => show win0_1.index t (1 : Fin 2) * 1 + 1 * 0 = 0; omega
  have h2 : ((cfg0.win 2).blk t).view.emb (ix2 p (⟨0, Nat.one_pos⟩ : Fin 1) : S256x1.Idx) = col (((cfg0.win 3).blk t).view.emb (ix2 p k : S256x4096.Idx)) := by
    funext a; apply Fin.ext
    match a with
    | ⟨0, _⟩ => show win0_2.index t (0 : Fin 2) * 256 + 1 * p.val = win0_3.index t (0 : Fin 2) * 256 + 1 * p.val; omega
    | ⟨1, _⟩ => show win0_2.index t (1 : Fin 2) * 1 + 1 * 0 = 0; omega
  show ((((V c main_arg1 (((cfg0.win 0).blk t).view.emb (ix2 p k : S256x4096.Idx))).toInt : ℝ) : EReal)
        - (((V c main_v1 (((cfg0.win 2).blk t).view.emb (ix2 p (⟨0, Nat.one_pos⟩ : Fin 1) : S256x1.Idx))).toInt : ℝ) : EReal))
      * V c main_v0 (((cfg0.win 1).blk t).view.emb (ix2 p (⟨0, Nat.one_pos⟩ : Fin 1) : S256x1.Idx)) = _
  rw [h0, h1, h2]
  rfl

/-- An index of the array is in point `t`'s block iff each coordinate is in the block's range on its axis. -/
theorem mem_blk (t : Fin cfg0.N) (i : S16384x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v2).slice (win0_3.rect t)).set ↔ _
  rw [View.set_slice_whole, Rect.mem_set_unit]
  exact Iff.rfl

/-- Row `r` of the array lies in the block of point `r / 256`: the 64 blocks tile the array. -/
theorem cover (i : S16384x4096.Idx) : ∃ t : Fin cfg0.N, (cfg0.win 3).flush t = true ∧ i ∈ ((cfg0.win 3).blk t).view.set := by
  have hi0 : (i 0).val < 16384 := (i 0).isLt
  have hi1 : (i 1).val < 4096 := (i 1).isLt
  have ht : (i 0).val / 256 < cfg0.N := by rw [show cfg0.N = 64 from N_0]; omega
  obtain ⟨-, -, -, -, -, -, e30, e31⟩ := idx_facts ⟨(i 0).val / 256, ht⟩
  have e30' : win0_3.index ⟨(i 0).val / 256, ht⟩ (0 : Fin 2) = (i 0).val / 256 := e30
  refine ⟨⟨(i 0).val / 256, ht⟩, flush0_3 _, ?_⟩
  rw [mem_blk]
  intro a
  match a with
  | ⟨0, _⟩ =>
    show win0_3.index ⟨(i 0).val / 256, ht⟩ (0 : Fin 2) * 256 ≤ (i 0).val ∧ (i 0).val < win0_3.index ⟨(i 0).val / 256, ht⟩ (0 : Fin 2) * 256 + 256
    rw [e30']; omega
  | ⟨1, _⟩ =>
    show win0_3.index ⟨(i 0).val / 256, ht⟩ (1 : Fin 2) * 4096 ≤ (i 1).val ∧ (i 1).val < win0_3.index ⟨(i 0).val / 256, ht⟩ (1 : Fin 2) * 4096 + 4096
    rw [e31]; omega

/-- The result array of the first pallas_call after its run. -/
theorem final (c : Dev nD) : (dat0 V c).arrAt 3 cfg0.N = deq (V c main_arg1) (V c main_v0) (V c main_v1) :=
  (dat0 V c).arrAt_eq_of_cover 3 _ (fun t _ => flushed_eq V c t) cover

end Region

end Cert.QuantLinear.Dequant

end
-- ==== Proof.Matmul.lean ====
/-
  The second pallas_call's body at one element.

  At a grid point the body holds a [1024, 4096] block of activations, a [512, 4096] block of the dequantized weight
  and a [1, 512] strip of the bias. It contracts the two blocks' second axes into a zero accumulator and adds the
  strip broadcast down the rows. The narrowing of the activations to bf16 is the identity on the extended reals, so
  element (r, n) of what it stores is `∑ₖ x[r, k] · w[n, k] + bias[0, n]`.
-/
import proofs.«146812_j63513976373289_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.QuantLinear.Matmul

open Idealize.ShloMosaic Idealize.ShloMosaic.TcCoe Idealize.ShloMosaic.ValueIdx Idealize.SL.Sem
open Cert.KernelIdeal Cert.KernelIdeal.Gen

/-! The contraction's operand indices, axis by axis: the left operand is read at (row of the output, k), the right at
    (column of the output, k). -/

theorem lhs_0 (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
theorem lhs_1 (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q
theorem rhs_0 (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
theorem rhs_1 (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

/-- The matrix product of the two blocks into the zero accumulator, at row `r` and column `n`. -/
theorem matmul_at (a : FVec Ideal S1024x4096 .bf16) (w : FVec Ideal S512x4096 .bf16) (r : Fin 1024) (n : Fin 512) :
    matmul dot_S1024x4096_S512x4096_S1024x512_1_1_0_0_n_n none a w (constant (F := Ideal) S1024x512 .f32 0x00000000#32) (ix2 r n)
      = ∑ k : Fin 4096, a (ix2 r k) * w (ix2 n k) := by
  show FloatOps.matmul dot_S1024x4096_S512x4096_S1024x512_1_1_0_0_n_n none a w (constant (F := Ideal) S1024x512 .f32 0x00000000#32) (ix2 r n) = _
  rw [Ideal.matmul_constant_zero_apply, ← Equiv.sum_comp (ValueIdx.contrEquiv1 dot_S1024x4096_S512x4096_S1024x512_1_1_0_0_n_n 4096 rfl rfl).symm]
  refine Finset.sum_congr rfl fun k _ => ?_
  have hk := ValueIdx.contrEquiv1_symm_val dot_S1024x4096_S512x4096_S1024x512_1_1_0_0_n_n 4096 rfl rfl k
  have el : dot_S1024x4096_S512x4096_S1024x512_1_1_0_0_n_n.lhsIdx (ix2 r n) ((ValueIdx.contrEquiv1 dot_S1024x4096_S512x4096_S1024x512_1_1_0_0_n_n 4096 rfl rfl).symm k) = ix2 r k := funext fun a => Fin.ext (by
    match a with
    | ⟨0, _⟩ => exact lhs_0 _ _
    | ⟨1, _⟩ => exact (lhs_1 _ _).trans hk)
  have er : dot_S1024x4096_S512x4096_S1024x512_1_1_0_0_n_n.rhsIdx (ix2 r n) ((ValueIdx.contrEquiv1 dot_S1024x4096_S512x4096_S1024x512_1_1_0_0_n_n 4096 rfl rfl).symm k) = ix2 n k := funext fun a => Fin.ext (by
    match a with
    | ⟨0, _⟩ => exact rhs_0 _ _
    | ⟨1, _⟩ => exact (rhs_1 _ _).trans hk)
  rw [el, er]

/-- The body's stored value at row `r`, column `n` of the block. -/
theorem pay_apply (x0 : Vec Ideal S1024x4096 .f32) (x1 : Vec Ideal S512x4096 .bf16) (x2 : Vec Ideal S1x512 .f32) (r : Fin 1024) (n : Fin 512) :
    k1_pay1 (F := Ideal) x0 x1 x2 (ix2 r n)
      = (∑ k : Fin 4096, x0 (ix2 r k) * x1 (ix2 n k)) + x2 (ix2 ⟨0, Nat.one_pos⟩ n) := by
  unfold k1_pay1
  rw [shapeCast_self, shapeCast_self, shapeCast_self]
  show matmul dot_S1024x4096_S512x4096_S1024x512_1_1_0_0_n_n none (truncf .bf16 x0 bitsLt_bf16_f32 : FVec Ideal S1024x4096 .bf16) x1 (constant (F := Ideal) S1024x512 .f32 0x00000000#32) (ix2 r n)
      + broadcastTo S1024x512 x2 broadcasts_S1x512_S1024x512 (ix2 r n) = _
  rw [matmul_at, broadcastTo_1b_ab_apply]
  rfl

end Cert.QuantLinear.Matmul

end
-- ==== Proof.MatmulRegion.lean ====
/-
  The second pallas_call: the product array.

  Its grid is 8 × 32; point (a, b) reads rows `1024 a …` of the flattened activations [8192, 4096], rows
  `512 b …` of the dequantized weight [16384, 4096] and columns `512 b …` of the bias row [1, 16384], and writes
  block (a, b) of the [8192, 16384] result. By the body's value at an element, every point writes its block of
  ONE function of the three arrays, `prod`: entry (r, n) is `∑ₖ x[r, k] · w[n, k] + bias[0, n]`. The 256 blocks
  tile the result.
-/
import proofs.«146812_j63513976373289_1_alg».proof.Proof.Gen.KernelIdeal.Frame
import proofs.«146812_j63513976373289_1_alg».proof.Proof.Matmul

set_option maxRecDepth 16384

noncomputable section

namespace Cert.QuantLinear.MatmulRegion

open Idealize.ShloMosaic Idealize.ShloMosaic.TcCoe Idealize.ShloMosaic.ValueIdx Idealize.SL.Sem
open Idealize.ShloMosaic.Pipeline (Dat)
open Cert.KernelIdeal Cert.KernelIdeal.Gen

/-- Where entry `j` of the product reads the activations, -/
abbrev lhsAt (j : S8192x16384.Idx) (k : Fin 4096) : S8192x4096.Idx := ix2 (n0 := 8192) (n1 := 4096) ⟨(j 0).val, (j 0).isLt⟩ k
/-- the weight, -/
abbrev rhsAt (j : S8192x16384.Idx) (k : Fin 4096) : S16384x4096.Idx := ix2 (n0 := 16384) (n1 := 4096) ⟨(j 1).val, (j 1).isLt⟩ k
/-- and the bias row. -/
abbrev biasAt (j : S8192x16384.Idx) : S1x16384.Idx := ix2 (n0 := 1) (n1 := 16384) ⟨0, Nat.one_pos⟩ ⟨(j 1).val, (j 1).isLt⟩

/-- The product array from the flattened activations, the weight and the bias row. -/
def prod (x2 : S8192x4096.Idx → EReal) (w : S16384x4096.Idx → EReal) (b2 : S1x16384.Idx → EReal) : S8192x16384.Idx → EReal :=
  fun j => (∑ k : Fin 4096, x2 (lhsAt j k) * w (rhsAt j k)) + b2 (biasAt j)

theorem prod_apply (x2 : S8192x4096.Idx → EReal) (w : S16384x4096.Idx → EReal) (b2 : S1x16384.Idx → EReal) (j : S8192x16384.Idx) :
    prod x2 w b2 j = (∑ k : Fin 4096, x2 (lhsAt j k) * w (rhsAt j k)) + b2 (biasAt j) := rfl

theorem hz : (![0, 0] : Fin 2 → Nat) = fun _ => 0 := funext fun a => by fin_cases a <;> rfl

section Region

variable (V : (c : Dev nD) → (b : Ref sig .tc) → Buf (Elt Ideal) ((c : Thread nD τ).loc b))

/-- The three arrays the region reads, as the region finds them, each at its literal type. -/
abbrev xarr (c : Dev nD) : S8192x4096.Idx → EReal := V c main_v3
abbrev warr (c : Dev nD) : S16384x4096.Idx → EReal := V c main_v2
abbrev barr (c : Dev nD) : S1x16384.Idx → EReal := V c main_v4

/-- How the input windows move with the output's block (a, b): the activations are at block row a, the weight at block
    row b, the bias at block column b. -/
theorem idx_facts : ∀ t : Fin cfg1.N, win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = 0 ∧ win1_2.index t (1 : Fin 2) = win1_3.index t (1 : Fin 2) :=
  (by decide +kernel : ∀ t : Fin grid1.N, _)

/-- Every block (a, b) of the result is some point's. -/
theorem idx_onto : ∀ (q0 : Fin 8) (q1 : Fin 32), ∃ t : Fin cfg1.N, win1_3.index t = ![q0.val, q1.val] :=
  (by decide +kernel : ∀ (q0 : Fin 8) (q1 : Fin 32), ∃ t : Fin grid1.N, win1_3.index t = ![q0.val, q1.val])

/-- What point `t` writes back is its block of `prod` of the three arrays the region finds. -/
theorem flushed_eq (c : Dev nD) (t : Fin cfg1.N) :
    (dat1 V c).flushed 3 t = ((cfg1.win 3).blk t).view.read (Elt Ideal) (prod (xarr V c) (warr V c) (barr V c)) := by
  show (cfg1.win 3).cut (grid1.coords t) ((dat1 V c).after 3 t) = _
  rw [after1_3]
  unfold out1_3
  rw [View.canon_unit_zero hz]
  simp only [View.ld_unit_zero (S := S1024x4096) hz, View.ld_unit_zero (S := S512x4096) hz, View.ld_unit_zero (S := S1x512) hz]
  funext j
  obtain ⟨r, n, rfl⟩ : ∃ (r : Fin 1024) (n : Fin 512), j = (ix2 r n : S1024x512.Idx) := ⟨j 0, j 1, eq_ix2 (n0 := 1024) (n1 := 512) j⟩
  show k1_pay1 (F := Ideal) (iblk1 V c 0 t) (iblk1 V c 1 t) (iblk1 V c 2 t) (ix2 r n)
      = prod (xarr V c) (warr V c) (barr V c) (((cfg1.win 3).blk t).view.emb (ix2 r n : S1024x512.Idx))
  refine (Matmul.pay_apply (iblk1 V c 0 t) (iblk1 V c 1 t) (iblk1 V c 2 t) r n).trans ?_
  rw [prod_apply]
  obtain ⟨e00, e01, e10, e11, e20, e21⟩ := idx_facts t
  have h0 : ∀ k : Fin 4096, ((cfg1.win 0).blk t).view.emb (ix2 r k : S1024x4096.Idx) = lhsAt (((cfg1.win 3).blk t).view.emb (ix2 r n : S1024x512.Idx)) k := fun k => by
    funext a; apply Fin.ext
    match a with
    | ⟨0, _⟩ => show win1_0.index t (0 : Fin 2) * 1024 + 1 * r.val = win1_3.index t (0 : Fin 2) * 1024 + 1 * r.val; omega
    | ⟨1, _⟩ => show win1_0.index t (1 : Fin 2) * 4096 + 1 * k.val = k.val; omega
  have h1 : ∀ k : Fin 4096, ((cfg1.win 1).blk t).view.emb (ix2 n k : S512x4096.Idx) = rhsAt (((cfg1.win 3).blk t).view.emb (ix2 r n : S1024x512.Idx)) k := fun k => by
    funext a; apply Fin.ext
    match a with
    | ⟨0, _⟩ => show win1_1.index t (0 : Fin 2) * 512 + 1 * n.val = win1_3.index t (1 : Fin 2) * 512 + 1 * n.val; omega
    | ⟨1, _⟩ => show win1_1.index t (1 : Fin 2) * 4096 + 1 * k.val = k.val; omega
  have h2 : ((cfg1.win 2).blk t).view.emb (ix2 (⟨0, Nat.one_pos⟩ : Fin 1) n : S1x512.Idx) = biasAt (((cfg1.win 3).blk t).view.emb (ix2 r n : S1024x512.Idx)) := by
    funext a; apply Fin.ext
    match a with
    | ⟨0, _⟩ => show win1_2.index t (0 : Fin 2) * 1 + 1 * 0 = 0; omega
    | ⟨1, _⟩ => show win1_2.index t (1 : Fin 2) * 512 + 1 * n.val = win1_3.index t (1 : Fin 2) * 512 + 1 * n.val; omega
  refine congrArg₂ (· + ·) (Finset.sum_congr rfl fun k _ => ?_) ?_
  · show xarr V c (((cfg1.win 0).blk t).view.emb (ix2 r k : S1024x4096.Idx)) * warr V c (((cfg1.win 1).blk t).view.emb (ix2 n k : S512x4096.Idx)) = _
    rw [h0 k, h1 k]
  · show barr V c (((cfg1.win 2).blk t).view.emb (ix2 (⟨0, Nat.one_pos⟩ : Fin 1) n : S1x512.Idx)) = _
    rw [h2]

/-- An index of the array is in point `t`'s block iff each coordinate is in the block's range on its axis. -/
theorem mem_blk (t : Fin cfg1.N) (i : S8192x16384.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v5).slice (win1_3.rect t)).set ↔ _
  rw [View.set_slice_whole, Rect.mem_set_unit]
  exact Iff.rfl

/-- Entry (r, n) lies in block (r / 1024, n / 512): the 256 blocks tile the result. -/
theorem cover (i : S8192x16384.Idx) : ∃ t : Fin cfg1.N, (cfg1.win 3).flush t = true ∧ i ∈ ((cfg1.win 3).blk t).view.set := by
  have hi0 : (i 0).val < 8192 := (i 0).isLt
  have hi1 : (i 1).val < 16384 := (i 1).isLt
  obtain ⟨t, ht⟩ := idx_onto ⟨(i 0).val / 1024, by omega⟩ ⟨(i 1).val / 512, by omega⟩
  have q0 : win1_3.index t (0 : Fin 2) = (i 0).val / 1024 := congrFun ht 0
  have q1 : win1_3.index t (1 : Fin 2) = (i 1).val / 512 := congrFun ht 1
  refine ⟨t, flush1_3 t, ?_⟩
  rw [mem_blk]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 512 ≤ (i 1).val ∧ (i 1).val < win1_3.index t (1 : Fin 2) * 512 + 512
    omega

/-- The result array of the second pallas_call after its run. -/
theorem final (c : Dev nD) : (dat1 V c).arrAt 3 cfg1.N = prod (xarr V c) (warr V c) (barr V c) :=
  (dat1 V c).arrAt_eq_of_cover 3 _ (fun t _ => flushed_eq V c t) cover

end Region

end Cert.QuantLinear.MatmulRegion

end
-- ==== Proof.KernelValue.lean ====
/-
  The kernel program's result, read through its five stretches.

  @main flattens the scale and the zero points to columns [16384, 1], runs the dequantization, flattens the
  activations to [8192, 4096] (row `b · 2048 + s` is position (b, s)) and the bias to a row [1, 16384], runs the
  product, and reshapes the [8192, 16384] product back to [4, 2048, 16384]. Each reshape is a relabelling of indices
  in row-major order, so the result at (b, s, o) is the product array at (b · 2048 + s, o), whose activations row is
  x[b, s, ·], whose weight row is the dequantized row `o` and whose bias is bias[o]: the layer's output.
-/
import proofs.«146812_j63513976373289_1_alg».proof.Proof.KernelRun
import proofs.«146812_j63513976373289_1_alg».proof.Proof.Dequant
import proofs.«146812_j63513976373289_1_alg».proof.Proof.MatmulRegion
import proofs.«146812_j63513976373289_1_alg».proof.Proof.Spec
import Idealize.ShloMosaic.Lib.StableHlo.Run

set_option maxRecDepth 16384

noncomputable section

namespace Cert.QuantLinear.Kernel

open Idealize.ShloMosaic Idealize.ShloMosaic.TcCoe Idealize.ShloMosaic.ValueIdx Idealize.SL.Sem
open Idealize.ShloMosaic.StableHlo
open Cert.KernelIdeal Cert.KernelIdeal.Gen

/-! ## The reshapes, read at an index -/

section Reshapes

variable {α : Type}

/-- A vector [16384] laid out as a column [16384, 1]: entry (o, 0) is entry o. -/
theorem column_apply (v : S16384.Idx → α) (o : Fin 16384) :
    shapeCast S16384x1 v shapeCasts_S16384_S16384x1 (ix2 (n0 := 16384) (n1 := 1) o ⟨0, Nat.one_pos⟩) = v (ix1 o) :=
  shapeCast_apply v _ _ (ix1 o) (by
    rw [Shape.rowMajor_val_one, Shape.rowMajor_val_two]
    show o.val = o.val * 1 + 0
    omega)

/-- A vector [16384] laid out as a row [1, 16384]: entry (0, o) is entry o. -/
theorem row_apply (v : S16384.Idx → α) (o : Fin 16384) :
    shapeCast S1x16384 v shapeCasts_S16384_S1x16384 (ix2 (n0 := 1) (n1 := 16384) ⟨0, Nat.one_pos⟩ o) = v (ix1 o) :=
  shapeCast_apply v _ _ (ix1 o) (by
    rw [Shape.rowMajor_val_one, Shape.rowMajor_val_two]
    show o.val = 0 * 16384 + o.val
    omega)

/-- The activations flattened over batch and position: row `b · 2048 + s` is position (b, s). -/
theorem flatten_apply (x : S4x2048x4096.Idx → α) (b : Fin 4) (s : Fin 2048) (k : Fin 4096) (hr : b.val * 2048 + s.val < 8192) :
    shapeCast S8192x4096 x shapeCasts_S4x2048x4096_S8192x4096 (ix2 (n0 := 8192) (n1 := 4096) ⟨b.val * 2048 + s.val, hr⟩ k) = x (ix3 b s k) :=
  shapeCast_apply x _ _ (ix3 b s k) (by
    rw [Shape.rowMajor_val_three, Shape.rowMajor_val_two]
    rfl)

/-- The product unflattened: position (b, s) is row `b · 2048 + s`. -/
theorem unflatten_apply (y : S8192x16384.Idx → α) (b : Fin 4) (s : Fin 2048) (o : Fin 16384) (hr : b.val * 2048 + s.val < 8192) :
    shapeCast S4x2048x16384 y shapeCasts_S8192x16384_S4x2048x16384 (ix3 b s o) = y (ix2 (n0 := 8192) (n1 := 16384) ⟨b.val * 2048 + s.val, hr⟩ o) :=
  shapeCast_apply y _ _ _ (by
    rw [Shape.rowMajor_val_three, Shape.rowMajor_val_two]
    rfl)

end Reshapes

/-- The dequantized weight over the two columns is the layer's weight over the two vectors. -/
theorem deq_apply (q : S16384x4096.Idx → BitVec 32) (sc : S16384.Idx → EReal) (zp : S16384.Idx → BitVec 32) (o : Fin 16384) (k : Fin 4096) :
    Dequant.deq q (shapeCast S16384x1 sc shapeCasts_S16384_S16384x1) (shapeCast S16384x1 zp shapeCasts_S16384_S16384x1) (ix2 o k)
      = QuantLinear.weight q sc zp o k := by
  unfold Dequant.deq QuantLinear.weight
  show ((((q (ix2 o k)).toInt : ℝ) : EReal)
      - (((shapeCast S16384x1 zp shapeCasts_S16384_S16384x1 (ix2 (n0 := 16384) (n1 := 1) o ⟨0, Nat.one_pos⟩)).toInt : ℝ) : EReal))
      * shapeCast S16384x1 sc shapeCasts_S16384_S16384x1 (ix2 (n0 := 16384) (n1 := 1) o ⟨0, Nat.one_pos⟩) = _
  rw [column_apply, column_apply]

/-! ## The buffers at the stretches' boundaries -/

variable (m : (ℓ : Loc nD τ sig) → Buf (Elt Ideal) ℓ) (ρ : Dev nD → PrngReg)

/-- The first pallas_call finds the integer weight as launched, -/
theorem entry0_q (c : Dev nD) : V1 m ρ c main_arg1 = m ((c : Thread nD τ).loc main_arg1) := by
  show StableHlo.after hostOps0 (W0 m ρ c) (Proc.devRef .tc main_arg1) = _
  dsimp only [hostOps0]
  after_results
/-- the scale as a column, -/
theorem entry0_scale (c : Dev nD) :
    (V1 m ρ c main_v0 : S16384x1.Idx → EReal) = shapeCast S16384x1 (m ((c : Thread nD τ).loc main_arg2)) shapeCasts_S16384_S16384x1 := by
  show StableHlo.after hostOps0 (W0 m ρ c) (Proc.devRef .tc main_v0) = _
  dsimp only [hostOps0]
  after_results
  rfl
/-- and the zero points as a column. -/
theorem entry0_zp (c : Dev nD) :
    (V1 m ρ c main_v1 : S16384x1.Idx → BitVec 32) = shapeCast S16384x1 (m ((c : Thread nD τ).loc main_arg3)) shapeCasts_S16384_S16384x1 := by
  show StableHlo.after hostOps0 (W0 m ρ c) (Proc.devRef .tc main_v1) = _
  dsimp only [hostOps0]
  after_results
  rfl

/-- The activations and the bias are still as launched when the first pallas_call has returned. -/
theorem mid_x (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    dsimp only [hostOps0]
    after_results)
theorem mid_bias (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    dsimp only [hostOps0]
    after_results)

/-- The second pallas_call finds the dequantized weight, -/
theorem entry1_w (c : Dev nD) :
    (V3 m ρ c main_v2 : S16384x4096.Idx → EReal)
      = Dequant.deq (m ((c : Thread nD τ).loc main_arg1)) (shapeCast S16384x1 (m ((c : Thread nD τ).loc main_arg2)) shapeCasts_S16384_S16384x1)
          (shapeCast S16384x1 (m ((c : Thread nD τ).loc main_arg3)) shapeCasts_S16384_S16384x1) := by
  have h : V3 m ρ c main_v2 = W2 m ρ c (Proc.devRef .tc main_v2) := by
    show StableHlo.after hostOps1 (W2 m ρ c) (Proc.devRef .tc main_v2) = _
    dsimp only [hostOps1]
    after_results
  rw [h]
  refine ((W2_arr m ρ c 3).trans (Dequant.final (V1 m ρ) c)).trans ?_
  rw [entry0_q, entry0_scale, entry0_zp]
/-- the activations flattened, -/
theorem entry1_x (c : Dev nD) :
    (V3 m ρ c main_v3 : S8192x4096.Idx → EReal) = shapeCast S8192x4096 (m ((c : Thread nD τ).loc main_arg0)) shapeCasts_S4x2048x4096_S8192x4096 := by
  show StableHlo.after hostOps1 (W2 m ρ c) (Proc.devRef .tc main_v3) = _
  dsimp only [hostOps1]
  after_results
  rw [mid_x]
  rfl
/-- and the bias as a row. -/
theorem entry1_bias (c : Dev nD) :
    (V3 m ρ c main_v4 : S1x16384.Idx → EReal) = shapeCast S1x16384 (m ((c : Thread nD τ).loc main_arg4)) shapeCasts_S16384_S1x16384 := by
  show StableHlo.after hostOps1 (W2 m ρ c) (Proc.devRef .tc main_v4) = _
  dsimp only [hostOps1]
  after_results
  rw [mid_bias]
  rfl

/-! ## The result -/

/-- The result buffer at the last boundary is the layer's output of the launch contents. -/
theorem result_eq (c : Dev nD) :
    (W5 m ρ c (Proc.devRef .tc main_v6) : S4x2048x16384.Idx → EReal)
      = QuantLinear.result (m ((c : Thread nD τ).loc main_arg0)) (m ((c : Thread nD τ).loc main_arg1)) (m ((c : Thread nD τ).loc main_arg2))
          (m ((c : Thread nD τ).loc main_arg3)) (m ((c : Thread nD τ).loc main_arg4)) := by
  have h5 : (W5 m ρ c (Proc.devRef .tc main_v6) : S4x2048x16384.Idx → EReal)
      = shapeCast S4x2048x16384 (W4 m ρ c (Proc.devRef .tc main_v5)) shapeCasts_S8192x16384_S4x2048x16384 := by
    show StableHlo.after hostOps2 (W4 m ρ c) (Proc.devRef .tc main_v6) = _
    dsimp only [hostOps2]
    after_results
    rfl
  have h4 : W4 m ρ c (Proc.devRef .tc main_v5) = MatmulRegion.prod (V3 m ρ c main_v3) (V3 m ρ c main_v2) (V3 m ρ c main_v4) :=
    (W4_arr m ρ c 3).trans (MatmulRegion.final (V3 m ρ) c)
  rw [h5, h4, entry1_x, entry1_w, entry1_bias]
  funext i
  obtain ⟨b, s, o, rfl⟩ : ∃ (b : Fin 4) (s : Fin 2048) (o : Fin 16384), i = (ix3 b s o : S4x2048x16384.Idx) := ⟨i 0, i 1, i 2, eq_ix3 (n0 := 4) (n1 := 2048) (n2 := 16384) i⟩
  have hr : b.val * 2048 + s.val < 8192 := by have := b.isLt; have := s.isLt; omega
  rw [QuantLinear.result_ix3, unflatten_apply _ b s o hr, MatmulRegion.prod_apply]
  unfold QuantLinear.out
  refine congrArg₂ (· + ·) (Finset.sum_congr rfl fun k _ => congrArg₂ (· * ·) ?_ ?_) ?_
  · exact flatten_apply _ b s k hr
  · exact deq_apply _ _ _ o k
  · exact row_apply _ o

end Cert.QuantLinear.Kernel

end
-- ==== Proof.lean ====
/-
  A quantized linear layer: per-channel integer weights dequantized by one pallas_call, then a tiled matrix product
  with bias by a second, against the plain jnp reference that dequantizes and contracts in one einsum.

  On the extended reals both programs compute, at batch b, position s and channel o,
      ∑ₖ x[b, s, k] · ((q[o, k] - zp[o]) · sc[o]) + bias[o],
  with the integers read exactly and every change of float format the identity (Proof/Spec.lean). The reference is that
  function read one operation at a time (Proof/RefValue.lean). The kernel program's first pallas_call leaves the
  dequantized weight as an array (Proof/Dequant.lean), its second the product of the flattened activations with that
  array plus the bias row (Proof/Matmul.lean for one element of a block, Proof/MatmulRegion.lean for the array), and
  the reshapes around them only relabel indices (Proof/KernelValue.lean). The two sums run over the same 4096
  products in the same order of factors, so no law of the extended reals beyond the definition of a finite sum is
  used and the precondition is never opened. The ideal pass rewrote nothing, so `preserves` has nothing to state.
-/
import proofs.«146812_j63513976373289_1_alg».proof.Defs
import proofs.«146812_j63513976373289_1_alg».proof.Proof.Gen.Kernel
import proofs.«146812_j63513976373289_1_alg».proof.Proof.Gen.Kernel.Skeleton
import proofs.«146812_j63513976373289_1_alg».proof.Proof.Gen.Kernel.Launch
import proofs.«146812_j63513976373289_1_alg».proof.Proof.Gen.Kernel.Points
import proofs.«146812_j63513976373289_1_alg».proof.Proof.Gen.Kernel.Frame
import proofs.«146812_j63513976373289_1_alg».proof.Proof.Gen.KernelIdeal
import proofs.«146812_j63513976373289_1_alg».proof.Proof.Gen.KernelIdeal.Skeleton
import proofs.«146812_j63513976373289_1_alg».proof.Proof.Gen.KernelIdeal.Launch
import proofs.«146812_j63513976373289_1_alg».proof.Proof.Gen.KernelIdeal.Points
import proofs.«146812_j63513976373289_1_alg».proof.Proof.Gen.KernelIdeal.Frame
import proofs.«146812_j63513976373289_1_alg».proof.Proof.Gen.ReferenceIdeal
import proofs.«146812_j63513976373289_1_alg».proof.Proof.Gen.ReferenceIdeal.Run
import proofs.«146812_j63513976373289_1_alg».proof.Proof.Gen.ReferenceIdeal.Read
import proofs.«146812_j63513976373289_1_alg».proof.Proof.Gen.Pre_finite_inputs
import proofs.«146812_j63513976373289_1_alg».proof.Proof.RefValue
import proofs.«146812_j63513976373289_1_alg».proof.Proof.KernelRun
import proofs.«146812_j63513976373289_1_alg».proof.Proof.KernelValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the layer's output of the (agreeing) arguments in their result buffers. -/
theorem algebraic : Cert.algebraic_KernelIdeal_ReferenceIdeal := by
  intro m ρ m' ρ' _ hagree
  refine ⟨fun c => Cert.QuantLinear.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.QuantLinear.Kernel.result_eq m ρ c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v11_eq, Cert.QuantLinear.Ref.stage_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
